-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S_ : Shape := ⟨0, ![]⟩

class Facts : Prop where
  bcast_S_S10000x1x64 : S_.BroadcastsInDim S10000x1x64 (![] : Fin 0 → Fin S10000x1x64.rank)
  reducesTo_S10000x1x64_S_d0_1_2 : S10000x1x64.ReducesTo [0, 1, 2] S_
  h_S_ : 0 < S_.numel
  bcast_S_S10000x3x64 : S_.BroadcastsInDim S10000x3x64 (![] : Fin 0 → Fin S10000x3x64.rank)
  reducesTo_S10000x3x64_S_d0_1_2 : S10000x3x64.ReducesTo [0, 1, 2] S_
  bcast_S_S10000x5x64 : S_.BroadcastsInDim S10000x5x64 (![] : Fin 0 → Fin S10000x5x64.rank)
  reducesTo_S10000x5x64_S_d0_1_2 : S10000x5x64.ReducesTo [0, 1, 2] S_
  bcast_S_S10000x7x64 : S_.BroadcastsInDim S10000x7x64 (![] : Fin 0 → Fin S10000x7x64.rank)
  reducesTo_S10000x7x64_S_d0_1_2 : S10000x7x64.ReducesTo [0, 1, 2] S_
  bcast_S_S10000x9x64 : S_.BroadcastsInDim S10000x9x64 (![] : Fin 0 → Fin S10000x9x64.rank)
  reducesTo_S10000x9x64_S_d0_1_2 : S10000x9x64.ReducesTo [0, 1, 2] S_
  bcast_S_S10000x11x64 : S_.BroadcastsInDim S10000x11x64 (![] : Fin 0 → Fin S10000x11x64.rank)
  reducesTo_S10000x11x64_S_d0_1_2 : S10000x11x64.ReducesTo [0, 1, 2] S_

variable [Facts]

def fn_part1 {F : FTy → Type} [FloatOps F] (main_arg4 : FVec F S10000x9x64 .f32) (main_arg5 : FVec F S10000x11x64 .f32) (main_v13 : IVec S_ 1) (main_v16 : IVec S10000x7x64 1) : IVec S_ 1 :=
  let main_c_5 : IVec S_ 1 := constantI S_ 1 1#1
  let main_v17 : IVec S_ 1 := (fun x v => Host.reduce IntOp.andi x v reducesTo_S10000x7x64_S_d0_1_2 h_S_) main_v16 main_c_5
  let main_v18 : IVec S_ 1 := andi main_v13 main_v17
  let main_v19 : FVec F S10000x9x64 .f32 := Host.absf main_arg4
  let main_cst_6 : FVec F S_ .f32 := constant S_ .f32 0x7F800000#32
  let main_v20 : FVec F S10000x9x64 .f32 := broadcastInDim S10000x9x64 ![] bcast_S_S10000x9x64 main_cst_6
  let main_v21 : IVec S10000x9x64 1 := cmpf .olt main_v19 main_v20
  let main_c_7 : IVec S_ 1 := constantI S_ 1 1#1
  let main_v22 : IVec S_ 1 := (fun x v => Host.reduce IntOp.andi x v reducesTo_S10000x9x64_S_d0_1_2 h_S_) main_v21 main_c_7
  let main_v23 : IVec S_ 1 := andi main_v18 main_v22
  let main_v24 : FVec F S10000x11x64 .f32 := Host.absf main_arg5
  let main_cst_8 : FVec F S_ .f32 := constant S_ .f32 0x7F800000#32
  let main_v25 : FVec F S10000x11x64 .f32 := broadcastInDim S10000x11x64 ![] bcast_S_S10000x11x64 main_cst_8
  let main_v26 : IVec S10000x11x64 1 := cmpf .olt main_v24 main_v25
  let main_c_9 : IVec S_ 1 := constantI S_ 1 1#1
  let main_v27 : IVec S_ 1 := (fun x v => Host.reduce IntOp.andi x v reducesTo_S10000x11x64_S_d0_1_2 h_S_) main_v26 main_c_9
  let main_v28 : IVec S_ 1 := andi main_v23 main_v27
  main_v28

def fn {F : FTy → Type} [FloatOps F] (main_arg0 : FVec F S10000x1x64 .f32) (main_arg1 : FVec F S10000x3x64 .f32) (main_arg2 : FVec F S10000x5x64 .f32) (main_arg3 : FVec F S10000x7x64 .f32) (main_arg4 : FVec F S10000x9x64 .f32) (main_arg5 : FVec F S10000x11x64 .f32) : IVec S_ 1 :=
  let main_v0 : FVec F S10000x1x64 .f32 := Host.absf main_arg0
  let main_cst : FVec F S_ .f32 := constant S_ .f32 0x7F800000#32
  let main_v1 : FVec F S10000x1x64 .f32 := broadcastInDim S10000x1x64 ![] bcast_S_S10000x1x64 main_cst
  let main_v2 : IVec S10000x1x64 1 := cmpf .olt main_v0 main_v1
  let main_c : IVec S_ 1 := constantI S_ 1 1#1
  let main_v3 : IVec S_ 1 := (fun x v => Host.reduce IntOp.andi x v reducesTo_S10000x1x64_S_d0_1_2 h_S_) main_v2 main_c
  let main_v4 : FVec F S10000x3x64 .f32 := Host.absf main_arg1
  let main_cst_0 : FVec F S_ .f32 := constant S_ .f32 0x7F800000#32
  let main_v5 : FVec F S10000x3x64 .f32 := broadcastInDim S10000x3x64 ![] bcast_S_S10000x3x64 main_cst_0
  let main_v6 : IVec S10000x3x64 1 := cmpf .olt main_v4 main_v5
  let main_c_1 : IVec S_ 1 := constantI S_ 1 1#1
  let main_v7 : IVec S_ 1 := (fun x v => Host.reduce IntOp.andi x v reducesTo_S10000x3x64_S_d0_1_2 h_S_) main_v6 main_c_1
  let main_v8 : IVec S_ 1 := andi main_v3 main_v7
  let main_v9 : FVec F S10000x5x64 .f32 := Host.absf main_arg2
  let main_cst_2 : FVec F S_ .f32 := constant S_ .f32 0x7F800000#32
  let main_v10 : FVec F S10000x5x64 .f32 := broadcastInDim S10000x5x64 ![] bcast_S_S10000x5x64 main_cst_2
  let main_v11 : IVec S10000x5x64 1 := cmpf .olt main_v9 main_v10
  let main_c_3 : IVec S_ 1 := constantI S_ 1 1#1
  let main_v12 : IVec S_ 1 := (fun x v => Host.reduce IntOp.andi x v reducesTo_S10000x5x64_S_d0_1_2 h_S_) main_v11 main_c_3
  let main_v13 : IVec S_ 1 := andi main_v8 main_v12
  let main_v14 : FVec F S10000x7x64 .f32 := Host.absf main_arg3
  let main_cst_4 : FVec F S_ .f32 := constant S_ .f32 0x7F800000#32
  let main_v15 : FVec F S10000x7x64 .f32 := broadcastInDim S10000x7x64 ![] bcast_S_S10000x7x64 main_cst_4
  let main_v16 : IVec S10000x7x64 1 := cmpf .olt main_v14 main_v15
  fn_part1 (F := F) main_arg4 main_arg5 main_v13 main_v16
-- ==== Kernel.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S10000x24576 : Shape := ⟨2, ![10000, 24576]⟩
abbrev S80x1x64 : Shape := ⟨3, ![80, 1, 64]⟩
abbrev S80x3x64 : Shape := ⟨3, ![80, 3, 64]⟩
abbrev S80x5x64 : Shape := ⟨3, ![80, 5, 64]⟩
abbrev S80x7x64 : Shape := ⟨3, ![80, 7, 64]⟩
abbrev S80x9x64 : Shape := ⟨3, ![80, 9, 64]⟩
abbrev S80x11x64 : Shape := ⟨3, ![80, 11, 64]⟩
abbrev S80x24576 : Shape := ⟨2, ![80, 24576]⟩
abbrev S80x64x64 : Shape := ⟨3, ![80, 64, 64]⟩
abbrev S80x64 : Shape := ⟨2, ![80, 64]⟩
abbrev S80x64x1 : Shape := ⟨3, ![80, 64, 1]⟩
abbrev S80x4096 : Shape := ⟨2, ![80, 4096]⟩

abbrev nBuf : Space → Nat
  | .hbm => 7
  | .vmem => 14
  | .smem => 0
  | _ => 0

abbrev bufTy : (tb : Table) → Fin (tcTables nBuf tb) → BufTy
  | .hbm, ⟨0, _⟩ => ⟨S10000x1x64, .f32⟩
  | .hbm, ⟨1, _⟩ => ⟨S10000x3x64, .f32⟩
  | .hbm, ⟨2, _⟩ => ⟨S10000x5x64, .f32⟩
  | .hbm, ⟨3, _⟩ => ⟨S10000x7x64, .f32⟩
  | .hbm, ⟨4, _⟩ => ⟨S10000x9x64, .f32⟩
  | .hbm, ⟨5, _⟩ => ⟨S10000x11x64, .f32⟩
  | .hbm, ⟨6, _⟩ => ⟨S10000x24576, .f32⟩
  | .local _ .vmem, ⟨0, _⟩ => ⟨S80x1x64, .f32⟩
  | .local _ .vmem, ⟨1, _⟩ => ⟨S80x1x64, .f32⟩
  | .local _ .vmem, ⟨2, _⟩ => ⟨S80x3x64, .f32⟩
  | .local _ .vmem, ⟨3, _⟩ => ⟨S80x3x64, .f32⟩
  | .local _ .vmem, ⟨4, _⟩ => ⟨S80x5x64, .f32⟩
  | .local _ .vmem, ⟨5, _⟩ => ⟨S80x5x64, .f32⟩
  | .local _ .vmem, ⟨6, _⟩ => ⟨S80x7x64, .f32⟩
  | .local _ .vmem, ⟨7, _⟩ => ⟨S80x7x64, .f32⟩
  | .local _ .vmem, ⟨8, _⟩ => ⟨S80x9x64, .f32⟩
  | .local _ .vmem, ⟨9, _⟩ => ⟨S80x9x64, .f32⟩
  | .local _ .vmem, ⟨10, _⟩ => ⟨S80x11x64, .f32⟩
  | .local _ .vmem, ⟨11, _⟩ => ⟨S80x11x64, .f32⟩
  | .local _ .vmem, ⟨12, _⟩ => ⟨S80x24576, .f32⟩
  | .local _ .vmem, ⟨13, _⟩ => ⟨S80x24576, .f32⟩
  | _, _ => ⟨S10000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x5x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x7x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x9x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x11x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x24576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S80x1x64_S80x1x64_0_0_0 : ∀ a, (![0, 0, 0] : Fin 3 → Nat) a + S80x1x64.size a ≤ S80x1x64.size a
  h_S80x1x64 : 0 < S80x1x64.numel
  shapeCasts_S80x1x64_S80x64 : S80x1x64.ShapeCasts S80x64
  shapeCasts_S80x64_S80x64x1 : S80x64.ShapeCasts S80x64x1
  shapeCasts_S80x64_S80x1x64 : S80x64.ShapeCasts S80x1x64
  broadcasts_S80x64x1_S80x64x64 : S80x64x1.Broadcasts S80x64x64
  broadcasts_S80x1x64_S80x64x64 : S80x1x64.Broadcasts S80x64x64
  shapeCasts_S80x64x64_S80x4096 : S80x64x64.ShapeCasts S80x4096
  inb_S80x24576_S80x4096_0_0 : ∀ a, (![0, 0] : Fin 2 → Nat) a + S80x4096.size a ≤ S80x24576.size a
  h_S80x4096 : 0 < S80x4096.numel
  inb_S80x3x64_S80x3x64_0_0_0 : ∀ a, (![0, 0, 0] : Fin 3 → Nat) a + S80x3x64.size a ≤ S80x3x64.size a
  h_S80x3x64 : 0 < S80x3x64.numel
  slices_S80x3x64_o0_0_0_S80x1x64 : S80x3x64.Slices ![0, 0, 0] S80x1x64
  slices_S80x3x64_o0_1_0_S80x1x64 : S80x3x64.Slices ![0, 1, 0] S80x1x64
  slices_S80x3x64_o0_2_0_S80x1x64 : S80x3x64.Slices ![0, 2, 0] S80x1x64
  inb_S80x24576_S80x4096_0_4096 : ∀ a, (![0, 4096] : Fin 2 → Nat) a + S80x4096.size a ≤ S80x24576.size a
  inb_S80x5x64_S80x5x64_0_0_0 : ∀ a, (![0, 0, 0] : Fin 3 → Nat) a + S80x5x64.size a ≤ S80x5x64.size a
  h_S80x5x64 : 0 < S80x5x64.numel
  slices_S80x5x64_o0_0_0_S80x1x64 : S80x5x64.Slices ![0, 0, 0] S80x1x64
  slices_S80x5x64_o0_1_0_S80x1x64 : S80x5x64.Slices ![0, 1, 0] S80x1x64
  slices_S80x5x64_o0_2_0_S80x1x64 : S80x5x64.Slices ![0, 2, 0] S80x1x64
  slices_S80x5x64_o0_3_0_S80x1x64 : S80x5x64.Slices ![0, 3, 0] S80x1x64
  slices_S80x5x64_o0_4_0_S80x1x64 : S80x5x64.Slices ![0, 4, 0] S80x1x64
  inb_S80x24576_S80x4096_0_8192 : ∀ a, (![0, 8192] : Fin 2 → Nat) a + S80x4096.size a ≤ S80x24576.size a
  inb_S80x7x64_S80x7x64_0_0_0 : ∀ a, (![0, 0, 0] : Fin 3 → Nat) a + S80x7x64.size a ≤ S80x7x64.size a
  h_S80x7x64 : 0 < S80x7x64.numel
  slices_S80x7x64_o0_0_0_S80x1x64 : S80x7x64.Slices ![0, 0, 0] S80x1x64
  slices_S80x7x64_o0_1_0_S80x1x64 : S80x7x64.Slices ![0, 1, 0] S80x1x64
  slices_S80x7x64_o0_2_0_S80x1x64 : S80x7x64.Slices ![0, 2, 0] S80x1x64
  slices_S80x7x64_o0_3_0_S80x1x64 : S80x7x64.Slices ![0, 3, 0] S80x1x64
  slices_S80x7x64_o0_4_0_S80x1x64 : S80x7x64.Slices ![0, 4, 0] S80x1x64
  slices_S80x7x64_o0_5_0_S80x1x64 : S80x7x64.Slices ![0, 5, 0] S80x1x64
  slices_S80x7x64_o0_6_0_S80x1x64 : S80x7x64.Slices ![0, 6, 0] S80x1x64
  inb_S80x24576_S80x4096_0_12288 : ∀ a, (![0, 12288] : Fin 2 → Nat) a + S80x4096.size a ≤ S80x24576.size a
  inb_S80x9x64_S80x9x64_0_0_0 : ∀ a, (![0, 0, 0] : Fin 3 → Nat) a + S80x9x64.size a ≤ S80x9x64.size a
  h_S80x9x64 : 0 < S80x9x64.numel
  slices_S80x9x64_o0_0_0_S80x1x64 : S80x9x64.Slices ![0, 0, 0] S80x1x64
  slices_S80x9x64_o0_1_0_S80x1x64 : S80x9x64.Slices ![0, 1, 0] S80x1x64
  slices_S80x9x64_o0_2_0_S80x1x64 : S80x9x64.Slices ![0, 2, 0] S80x1x64
  slices_S80x9x64_o0_3_0_S80x1x64 : S80x9x64.Slices ![0, 3, 0] S80x1x64
  slices_S80x9x64_o0_4_0_S80x1x64 : S80x9x64.Slices ![0, 4, 0] S80x1x64
  slices_S80x9x64_o0_5_0_S80x1x64 : S80x9x64.Slices ![0, 5, 0] S80x1x64
  slices_S80x9x64_o0_6_0_S80x1x64 : S80x9x64.Slices ![0, 6, 0] S80x1x64
  slices_S80x9x64_o0_7_0_S80x1x64 : S80x9x64.Slices ![0, 7, 0] S80x1x64
  slices_S80x9x64_o0_8_0_S80x1x64 : S80x9x64.Slices ![0, 8, 0] S80x1x64
  inb_S80x24576_S80x4096_0_16384 : ∀ a, (![0, 16384] : Fin 2 → Nat) a + S80x4096.size a ≤ S80x24576.size a
  inb_S80x11x64_S80x11x64_0_0_0 : ∀ a, (![0, 0, 0] : Fin 3 → Nat) a + S80x11x64.size a ≤ S80x11x64.size a
  h_S80x11x64 : 0 < S80x11x64.numel
  slices_S80x11x64_o0_0_0_S80x1x64 : S80x11x64.Slices ![0, 0, 0] S80x1x64
  slices_S80x11x64_o0_1_0_S80x1x64 : S80x11x64.Slices ![0, 1, 0] S80x1x64
  slices_S80x11x64_o0_2_0_S80x1x64 : S80x11x64.Slices ![0, 2, 0] S80x1x64
  slices_S80x11x64_o0_3_0_S80x1x64 : S80x11x64.Slices ![0, 3, 0] S80x1x64
  slices_S80x11x64_o0_4_0_S80x1x64 : S80x11x64.Slices ![0, 4, 0] S80x1x64
  slices_S80x11x64_o0_5_0_S80x1x64 : S80x11x64.Slices ![0, 5, 0] S80x1x64
  slices_S80x11x64_o0_6_0_S80x1x64 : S80x11x64.Slices ![0, 6, 0] S80x1x64
  slices_S80x11x64_o0_7_0_S80x1x64 : S80x11x64.Slices ![0, 7, 0] S80x1x64
  slices_S80x11x64_o0_8_0_S80x1x64 : S80x11x64.Slices ![0, 8, 0] S80x1x64
  slices_S80x11x64_o0_9_0_S80x1x64 : S80x11x64.Slices ![0, 9, 0] S80x1x64
  slices_S80x11x64_o0_10_0_S80x1x64 : S80x11x64.Slices ![0, 10, 0] S80x1x64
  inb_S80x24576_S80x4096_0_20480 : ∀ a, (![0, 20480] : Fin 2 → Nat) a + S80x4096.size a ≤ S80x24576.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x1x64.size a ≤ S10000x1x64.size a
  hwx0_0 : ∀ i : grid0.Coords, EltTy.bits .f32 = 32 ∨ (Rect.block (s := S10000x1x64) S80x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x3x64.size a ≤ S10000x3x64.size a
  hwx0_1 : ∀ i : grid0.Coords, EltTy.bits .f32 = 32 ∨ (Rect.block (s := S10000x3x64) S80x3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x5x64.size a ≤ S10000x5x64.size a
  hwx0_2 : ∀ i : grid0.Coords, EltTy.bits .f32 = 32 ∨ (Rect.block (s := S10000x5x64) S80x5x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x7x64.size a ≤ S10000x7x64.size a
  hwx0_3 : ∀ i : grid0.Coords, EltTy.bits .f32 = 32 ∨ (Rect.block (s := S10000x7x64) S80x7x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x9x64.size a ≤ S10000x9x64.size a
  hwx0_4 : ∀ i : grid0.Coords, EltTy.bits .f32 = 32 ∨ (Rect.block (s := S10000x9x64) S80x9x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x11x64.size a ≤ S10000x11x64.size a
  hwx0_5 : ∀ i : grid0.Coords, EltTy.bits .f32 = 32 ∨ (Rect.block (s := S10000x11x64) S80x11x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x24576.size a ≤ S10000x24576.size a
  hwx0_6 : ∀ i : grid0.Coords, EltTy.bits .f32 = 32 ∨ (Rect.block (s := S10000x24576) S80x24576.size (cc0_transform_6 i) (hinb0_6 i)).WholeWords (EltTy.packing .f32)

variable [Facts₀]

abbrev win0_0 : Pipeline.Window sig grid0 :=
  Pipeline.Window.ofSpec (Memref.whole main_arg0) S80x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x5x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S80x7x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S80x9x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S80x11x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S80x24576.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S10000x64x64 : Shape := ⟨3, ![10000, 64, 64]⟩
abbrev S_ : Shape := ⟨0, ![]⟩
abbrev S10000x4096 : Shape := ⟨2, ![10000, 4096]⟩
abbrev S10000x24576 : Shape := ⟨2, ![10000, 24576]⟩

abbrev nBuf : Space → Nat
  | .hbm => 37
  | .vmem => 0
  | .smem => 0
  | _ => 0

abbrev bufTy : (tb : Table) → Fin (tcTables nBuf tb) → BufTy
  | .hbm, ⟨0, _⟩ => ⟨S10000x1x64, .f32⟩
  | .hbm, ⟨1, _⟩ => ⟨S10000x3x64, .f32⟩
  | .hbm, ⟨2, _⟩ => ⟨S10000x5x64, .f32⟩
  | .hbm, ⟨3, _⟩ => ⟨S10000x7x64, .f32⟩
  | .hbm, ⟨4, _⟩ => ⟨S10000x9x64, .f32⟩
  | .hbm, ⟨5, _⟩ => ⟨S10000x11x64, .f32⟩
  | .hbm, ⟨6, _⟩ => ⟨S10000x64x64, .f32⟩
  | .hbm, ⟨7, _⟩ => ⟨S_, .f32⟩
  | .hbm, ⟨8, _⟩ => ⟨S10000x64x64, .f32⟩
  | .hbm, ⟨9, _⟩ => ⟨S10000x64x64, .f32⟩
  | .hbm, ⟨10, _⟩ => ⟨S10000x4096, .f32⟩
  | .hbm, ⟨11, _⟩ => ⟨S10000x64x64, .f32⟩
  | .hbm, ⟨12, _⟩ => ⟨S_, .f32⟩
  | .hbm, ⟨13, _⟩ => ⟨S10000x64x64, .f32⟩
  | .hbm, ⟨14, _⟩ => ⟨S10000x64x64, .f32⟩
  | .hbm, ⟨15, _⟩ => ⟨S10000x4096, .f32⟩
  | .hbm, ⟨16, _⟩ => ⟨S10000x64x64, .f32⟩
  | .hbm, ⟨17, _⟩ => ⟨S_, .f32⟩
  | .hbm, ⟨18, _⟩ => ⟨S10000x64x64, .f32⟩
  | .hbm, ⟨19, _⟩ => ⟨S10000x64x64, .f32⟩
  | .hbm, ⟨20, _⟩ => ⟨S10000x4096, .f32⟩
  | .hbm, ⟨21, _⟩ => ⟨S10000x64x64, .f32⟩
  | .hbm, ⟨22, _⟩ => ⟨S_, .f32⟩
  | .hbm, ⟨23, _⟩ => ⟨S10000x64x64, .f32⟩
  | .hbm, ⟨24, _⟩ => ⟨S10000x64x64, .f32⟩
  | .hbm, ⟨25, _⟩ => ⟨S10000x4096, .f32⟩
  | .hbm, ⟨26, _⟩ => ⟨S10000x64x64, .f32⟩
  | .hbm, ⟨27, _⟩ => ⟨S_, .f32⟩
  | .hbm, ⟨28, _⟩ => ⟨S10000x64x64, .f32⟩
  | .hbm, ⟨29, _⟩ => ⟨S10000x64x64, .f32⟩
  | .hbm, ⟨30, _⟩ => ⟨S10000x4096, .f32⟩
  | .hbm, ⟨31, _⟩ => ⟨S10000x64x64, .f32⟩
  | .hbm, ⟨32, _⟩ => ⟨S_, .f32⟩
  | .hbm, ⟨33, _⟩ => ⟨S10000x64x64, .f32⟩
  | .hbm, ⟨34, _⟩ => ⟨S10000x64x64, .f32⟩
  | .hbm, ⟨35, _⟩ => ⟨S10000x4096, .f32⟩
  | .hbm, ⟨36, _⟩ => ⟨S10000x24576, .f32⟩
  | _, _ => ⟨S10000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S10000x64x64 : S_.BroadcastsInDim S10000x64x64 (![] : Fin 0 → Fin S10000x64x64.rank)
  shapeCasts_S10000x64x64_S10000x4096 : S10000x64x64.ShapeCasts S10000x4096
  concatenates_S10000x4096_S10000x4096_S10000x4096_S10000x4096_S10000x4096_S10000x4096_S10000x24576_d1 : Shape.Concatenates [S10000x4096, S10000x4096, S10000x4096, S10000x4096, S10000x4096, S10000x4096] S10000x24576 1
  dot_S10000x1x64_S10000x1x64_S10000x64x64_1_1_2_2_0_0_wf : DotDims.WF S10000x1x64 S10000x1x64 S10000x64x64 [1] [1] [2] [2] [0] [0]
  dot_S10000x3x64_S10000x3x64_S10000x64x64_1_1_2_2_0_0_wf : DotDims.WF S10000x3x64 S10000x3x64 S10000x64x64 [1] [1] [2] [2] [0] [0]
  dot_S10000x5x64_S10000x5x64_S10000x64x64_1_1_2_2_0_0_wf : DotDims.WF S10000x5x64 S10000x5x64 S10000x64x64 [1] [1] [2] [2] [0] [0]
  dot_S10000x7x64_S10000x7x64_S10000x64x64_1_1_2_2_0_0_wf : DotDims.WF S10000x7x64 S10000x7x64 S10000x64x64 [1] [1] [2] [2] [0] [0]
  dot_S10000x9x64_S10000x9x64_S10000x64x64_1_1_2_2_0_0_wf : DotDims.WF S10000x9x64 S10000x9x64 S10000x64x64 [1] [1] [2] [2] [0] [0]
  dot_S10000x11x64_S10000x11x64_S10000x64x64_1_1_2_2_0_0_wf : DotDims.WF S10000x11x64 S10000x11x64 S10000x64x64 [1] [1] [2] [2] [0] [0]

variable [Facts₀]

def dot_S10000x1x64_S10000x1x64_S10000x64x64_1_1_2_2_0_0 : DotDims S10000x1x64 S10000x1x64 S10000x64x64 where
  lhsContracting := [1]
  rhsContracting := [1]
  lhsNonContracting := [2]
  rhsNonContracting := [2]
  lhsBatch := [0]
  rhsBatch := [0]
  wf := dot_S10000x1x64_S10000x1x64_S10000x64x64_1_1_2_2_0_0_wf
def dot_S10000x3x64_S10000x3x64_S10000x64x64_1_1_2_2_0_0 : DotDims S10000x3x64 S10000x3x64 S10000x64x64 where
  lhsContracting := [1]
  rhsContracting := [1]
  lhsNonContracting := [2]
  rhsNonContracting := [2]
  lhsBatch := [0]
  rhsBatch := [0]
  wf := dot_S10000x3x64_S10000x3x64_S10000x64x64_1_1_2_2_0_0_wf
def dot_S10000x5x64_S10000x5x64_S10000x64x64_1_1_2_2_0_0 : DotDims S10000x5x64 S10000x5x64 S10000x64x64 where
  lhsContracting := [1]
  rhsContracting := [1]
  lhsNonContracting := [2]
  rhsNonContracting := [2]
  lhsBatch := [0]
  rhsBatch := [0]
  wf := dot_S10000x5x64_S10000x5x64_S10000x64x64_1_1_2_2_0_0_wf
def dot_S10000x7x64_S10000x7x64_S10000x64x64_1_1_2_2_0_0 : DotDims S10000x7x64 S10000x7x64 S10000x64x64 where
  lhsContracting := [1]
  rhsContracting := [1]
  lhsNonContracting := [2]
  rhsNonContracting := [2]
  lhsBatch := [0]
  rhsBatch := [0]
  wf := dot_S10000x7x64_S10000x7x64_S10000x64x64_1_1_2_2_0_0_wf
def dot_S10000x9x64_S10000x9x64_S10000x64x64_1_1_2_2_0_0 : DotDims S10000x9x64 S10000x9x64 S10000x64x64 where
  lhsContracting := [1]
  rhsContracting := [1]
  lhsNonContracting := [2]
  rhsNonContracting := [2]
  lhsBatch := [0]
  rhsBatch := [0]
  wf := dot_S10000x9x64_S10000x9x64_S10000x64x64_1_1_2_2_0_0_wf
def dot_S10000x11x64_S10000x11x64_S10000x64x64_1_1_2_2_0_0 : DotDims S10000x11x64 S10000x11x64 S10000x64x64 where
  lhsContracting := [1]
  rhsContracting := [1]
  lhsNonContracting := [2]
  rhsNonContracting := [2]
  lhsBatch := [0]
  rhsBatch := [0]
  wf := dot_S10000x11x64_S10000x11x64_S10000x64x64_1_1_2_2_0_0_wf

class Facts : Prop extends Facts₀ where

variable [Facts]
-- ==== Proof.Gram.lean ====
/-
  The power spectrum of one angular channel, and the layout steps a block computation takes to reach it.

  For a channel with M components, sample n and features f, g the entry is
      c · Σ_{k < M} x[n, k, f] · x[n, k, g],
  a scaled Gram matrix of the sample's M feature rows. A block computation reaches it one component at a time:
  it cuts row k out of the block, views it once as a column and once as a row, spreads both over the 64 × 64 square,
  multiplies, and adds the product to a running total that starts at zero; the total is scaled and its square is
  laid out flat, entry (f, g) at position 64 f + g. Each of these steps is read here at an index written by its
  coordinates, and a sum over the components is unrolled from the left, as a running total is.
-/
import Idealize.ShloMosaic.Lib.Pipeline.Value
import Idealize.ShloMosaic.Lib.ValueIdx
import Idealize.ShloMosaic.PureOps.Ideal.Laws

noncomputable section

open scoped BigOperators

namespace Cert.Gram

open Idealize.ShloMosaic Idealize.ShloMosaic.ValueIdx

variable {α : Type}

/-! ## Layout steps read at an index -/

/-- Row k of a block [R, M, 64], cut out as [R, 1, 64], reads at (r, ·, f) the block at (r, k, f). -/
theorem slice_row {R M : ℕ} (k : ℕ) (hk : k < M) (v : (⟨3, ![R, M, 64]⟩ : Shape).Idx → α)
    (h : (⟨3, ![R, M, 64]⟩ : Shape).Slices ![0, k, 0] ⟨3, ![R, 1, 64]⟩) (r : Fin R) (z : Fin 1) (f : Fin 64) :
    extractStridedSlice ⟨3, ![R, 1, 64]⟩ ![0, k, 0] v h (ix3 r z f) = v (ix3 r ⟨k, hk⟩ f) :=
  extractStridedSlice_apply _ v h _ _ fun a => by
    match a with
    | ⟨0, _⟩ => show r.val = 0 + r.val; omega
    | ⟨1, _⟩ => show k = k + z.val; omega
    | ⟨2, _⟩ => show f.val = 0 + f.val; omega

/-- A one-row block [R, 1, 64] viewed as [R, 64] reads at (r, f) the block at (r, 0, f). -/
theorem drop_unit {R : ℕ} (v : (⟨3, ![R, 1, 64]⟩ : Shape).Idx → α)
    (h : (⟨3, ![R, 1, 64]⟩ : Shape).ShapeCasts ⟨2, ![R, 64]⟩) (r : Fin R) (f : Fin 64) :
    shapeCast ⟨2, ![R, 64]⟩ v h (ix2 r f) = v (ix3 r (0 : Fin 1) f) :=
  shapeCast_apply v h _ _ (by
    rw [Shape.rowMajor_val_three, Shape.rowMajor_val_two]
    show (r.val * 1 + 0) * 64 + f.val = r.val * 64 + f.val
    omega)

/-- A matrix [R, 64] viewed as columns [R, 64, 1] reads at (r, f, ·) the matrix at (r, f). -/
theorem as_column {R : ℕ} (u : (⟨2, ![R, 64]⟩ : Shape).Idx → α)
    (h : (⟨2, ![R, 64]⟩ : Shape).ShapeCasts ⟨3, ![R, 64, 1]⟩) (r : Fin R) (f : Fin 64) (z : Fin 1) :
    shapeCast ⟨3, ![R, 64, 1]⟩ u h (ix3 r f z) = u (ix2 r f) :=
  shapeCast_apply u h _ _ (by
    rw [Shape.rowMajor_val_three, Shape.rowMajor_val_two]
    show r.val * 64 + f.val = (r.val * 64 + f.val) * 1 + z.val
    omega)

/-- A matrix [R, 64] viewed as rows [R, 1, 64] reads at (r, ·, g) the matrix at (r, g). -/
theorem as_row {R : ℕ} (u : (⟨2, ![R, 64]⟩ : Shape).Idx → α)
    (h : (⟨2, ![R, 64]⟩ : Shape).ShapeCasts ⟨3, ![R, 1, 64]⟩) (r : Fin R) (z : Fin 1) (g : Fin 64) :
    shapeCast ⟨3, ![R, 1, 64]⟩ u h (ix3 r z g) = u (ix2 r g) :=
  shapeCast_apply u h _ _ (by
    rw [Shape.rowMajor_val_three, Shape.rowMajor_val_two]
    show r.val * 64 + g.val = (r.val * 1 + z.val) * 64 + g.val
    omega)

/-- Columns [R, 64, 1] spread over [R, 64, 64] read at (r, f, g) the column entry (r, f, 0). -/
theorem spread_column {R : ℕ} (w : (⟨3, ![R, 64, 1]⟩ : Shape).Idx → α)
    (h : (⟨3, ![R, 64, 1]⟩ : Shape).Broadcasts ⟨3, ![R, 64, 64]⟩) (r : Fin R) (f g : Fin 64) :
    broadcastTo ⟨3, ![R, 64, 64]⟩ w h (ix3 r f g) = w (ix3 r f (0 : Fin 1)) := by
  refine broadcastTo_apply w h (ix3 r f g) (ix3 r f (0 : Fin 1)) fun a => ?_
  match a with
  | ⟨0, _⟩ =>
    show r.val = if R = 1 then 0 else r.val
    split
    · have := r.isLt; omega
    · rfl
  | ⟨1, _⟩ => rfl
  | ⟨2, _⟩ => rfl

/-- Rows [R, 1, 64] spread over [R, 64, 64] read at (r, f, g) the row entry (r, 0, g). -/
theorem spread_row {R : ℕ} (w : (⟨3, ![R, 1, 64]⟩ : Shape).Idx → α)
    (h : (⟨3, ![R, 1, 64]⟩ : Shape).Broadcasts ⟨3, ![R, 64, 64]⟩) (r : Fin R) (f g : Fin 64) :
    broadcastTo ⟨3, ![R, 64, 64]⟩ w h (ix3 r f g) = w (ix3 r (0 : Fin 1) g) := by
  refine broadcastTo_apply w h (ix3 r f g) (ix3 r (0 : Fin 1) g) fun a => ?_
  match a with
  | ⟨0, _⟩ =>
    show r.val = if R = 1 then 0 else r.val
    split
    · have := r.isLt; omega
    · rfl
  | ⟨1, _⟩ => rfl
  | ⟨2, _⟩ => rfl

/-- A square [R, 64, 64] laid out flat as [R, 4096] reads at (r, j) the square at (r, j / 64, j mod 64). -/
theorem flat {R : ℕ} (w : (⟨3, ![R, 64, 64]⟩ : Shape).Idx → α)
    (h : (⟨3, ![R, 64, 64]⟩ : Shape).ShapeCasts ⟨2, ![R, 4096]⟩) (r : Fin R) (j : Fin 4096) :
    shapeCast ⟨2, ![R, 4096]⟩ w h (ix2 r j)
      = w (ix3 r (⟨j.val / 64, by have := j.isLt; omega⟩ : Fin 64) (⟨j.val % 64, Nat.mod_lt _ (by decide)⟩ : Fin 64)) :=
  shapeCast_apply w h _ _ (by
    rw [Shape.rowMajor_val_three, Shape.rowMajor_val_two]
    show (r.val * 64 + j.val / 64) * 64 + j.val % 64 = r.val * 4096 + j.val
    omega)

/-! ## The specification -/

/-- Entry (f, g) of sample r's scaled Gram matrix over the M components of a block or array [R, M, 64]. -/
def gram {R M : ℕ} (c : EReal) (x : (⟨3, ![R, M, 64]⟩ : Shape).Idx → EReal) (r : Fin R) (f g : Fin 64) : EReal :=
  c * ∑ k : Fin M, x (ix3 r k f) * x (ix3 r k g)

/-- The entry depends only on sample r's rows: two arrays that agree there have the same entry, whatever their
    numbers of samples and the places of the sample in them. -/
theorem gram_congr {R R' M : ℕ} (c : EReal) (x : (⟨3, ![R, M, 64]⟩ : Shape).Idx → EReal)
    (x' : (⟨3, ![R', M, 64]⟩ : Shape).Idx → EReal) (r : Fin R) (r' : Fin R')
    (hx : ∀ (k : Fin M) (f : Fin 64), x (ix3 r k f) = x' (ix3 r' k f)) (f g : Fin 64) :
    gram c x r f g = gram c x' r' f g := by
  unfold gram
  exact congrArg (c * ·) (Finset.sum_congr rfl fun k _ => by rw [hx k f, hx k g])

/-! ## A sum over the components, as a running total from zero -/

section Totals

variable {β : Type} [AddCommMonoid β]

theorem total1 (P : Fin 1 → β) : ∑ k, P k = 0 + P ⟨0, by decide⟩ := by
  simp only [Fin.sum_univ_castSucc, Fin.sum_univ_zero]; rfl

theorem total3 (P : Fin 3 → β) : ∑ k, P k = 0 + P ⟨0, by decide⟩ + P ⟨1, by decide⟩ + P ⟨2, by decide⟩ := by
  simp only [Fin.sum_univ_castSucc, Fin.sum_univ_zero]; rfl

theorem total5 (P : Fin 5 → β) :
    ∑ k, P k = 0 + P ⟨0, by decide⟩ + P ⟨1, by decide⟩ + P ⟨2, by decide⟩ + P ⟨3, by decide⟩ + P ⟨4, by decide⟩ := by
  simp only [Fin.sum_univ_castSucc, Fin.sum_univ_zero]; rfl

theorem total7 (P : Fin 7 → β) :
    ∑ k, P k = 0 + P ⟨0, by decide⟩ + P ⟨1, by decide⟩ + P ⟨2, by decide⟩ + P ⟨3, by decide⟩ + P ⟨4, by decide⟩
      + P ⟨5, by decide⟩ + P ⟨6, by decide⟩ := by
  simp only [Fin.sum_univ_castSucc, Fin.sum_univ_zero]; rfl

theorem total9 (P : Fin 9 → β) :
    ∑ k, P k = 0 + P ⟨0, by decide⟩ + P ⟨1, by decide⟩ + P ⟨2, by decide⟩ + P ⟨3, by decide⟩ + P ⟨4, by decide⟩
      + P ⟨5, by decide⟩ + P ⟨6, by decide⟩ + P ⟨7, by decide⟩ + P ⟨8, by decide⟩ := by
  simp only [Fin.sum_univ_castSucc, Fin.sum_univ_zero]; rfl

theorem total11 (P : Fin 11 → β) :
    ∑ k, P k = 0 + P ⟨0, by decide⟩ + P ⟨1, by decide⟩ + P ⟨2, by decide⟩ + P ⟨3, by decide⟩ + P ⟨4, by decide⟩
      + P ⟨5, by decide⟩ + P ⟨6, by decide⟩ + P ⟨7, by decide⟩ + P ⟨8, by decide⟩ + P ⟨9, by decide⟩
      + P ⟨10, by decide⟩ := by
  simp only [Fin.sum_univ_castSucc, Fin.sum_univ_zero]; rfl

end Totals

end Cert.Gram

end
-- ==== Proof.Spectrum.lean ====
/-
  The whole power spectrum: six angular channels of 1, 3, 5, 7, 9 and 11 components, each a scaled Gram matrix
  over its components laid out flat in 4096 columns, the six set side by side in 24576 columns. Column j belongs to
  channel j / 4096 and, inside its channel, to the feature pair (j / 64 mod 64, j mod 64). The channel's weight is
  the single-precision word of (2l + 1)^(-1/2), the same word in both programs, so it is never evaluated.
-/
import proofs.«116602_j6279242187188_1_alg».proof.Proof.Gram

noncomputable section

namespace Cert.Gram

open Idealize.ShloMosaic Idealize.ShloMosaic.ValueIdx

/-- The channels' weights, as their words. -/
abbrev w0 : EReal := Ideal.ofBits .f32 0x3F800000#32
abbrev w1 : EReal := Ideal.ofBits .f32 0x3F13CD3A#32
abbrev w2 : EReal := Ideal.ofBits .f32 0x3EE4F92E#32
abbrev w3 : EReal := Ideal.ofBits .f32 0x3EC1848F#32
abbrev w4 : EReal := Ideal.ofBits .f32 0x3EAAAAAB#32
abbrev w5 : EReal := Ideal.ofBits .f32 0x3E9A5FB2#32

/-- The first feature of column j's pair. -/
abbrev featF (j : Fin 24576) : Fin 64 := ⟨j.val / 64 % 64, Nat.mod_lt _ (by decide)⟩
/-- The second feature of column j's pair. -/
abbrev featG (j : Fin 24576) : Fin 64 := ⟨j.val % 64, Nat.mod_lt _ (by decide)⟩

/-- The power spectrum of sample n at column j, of six coefficient arrays with R samples each. -/
def spectrumAt {R : ℕ} (c0 : (⟨3, ![R, 1, 64]⟩ : Shape).Idx → EReal) (c1 : (⟨3, ![R, 3, 64]⟩ : Shape).Idx → EReal)
    (c2 : (⟨3, ![R, 5, 64]⟩ : Shape).Idx → EReal) (c3 : (⟨3, ![R, 7, 64]⟩ : Shape).Idx → EReal)
    (c4 : (⟨3, ![R, 9, 64]⟩ : Shape).Idx → EReal) (c5 : (⟨3, ![R, 11, 64]⟩ : Shape).Idx → EReal)
    (n : Fin R) (j : Fin 24576) : EReal :=
  if j.val < 4096 then gram w0 c0 n (featF j) (featG j)
  else if j.val < 8192 then gram w1 c1 n (featF j) (featG j)
  else if j.val < 12288 then gram w2 c2 n (featF j) (featG j)
  else if j.val < 16384 then gram w3 c3 n (featF j) (featG j)
  else if j.val < 20480 then gram w4 c4 n (featF j) (featG j)
  else gram w5 c5 n (featF j) (featG j)

/-- The power spectrum as an array [R, 24576]. -/
def spectrum {R : ℕ} (c0 : (⟨3, ![R, 1, 64]⟩ : Shape).Idx → EReal) (c1 : (⟨3, ![R, 3, 64]⟩ : Shape).Idx → EReal)
    (c2 : (⟨3, ![R, 5, 64]⟩ : Shape).Idx → EReal) (c3 : (⟨3, ![R, 7, 64]⟩ : Shape).Idx → EReal)
    (c4 : (⟨3, ![R, 9, 64]⟩ : Shape).Idx → EReal) (c5 : (⟨3, ![R, 11, 64]⟩ : Shape).Idx → EReal) :
    (⟨2, ![R, 24576]⟩ : Shape).Idx → EReal :=
  fun i => spectrumAt c0 c1 c2 c3 c4 c5 (i 0) (i 1)

/-- A sample's spectrum depends only on that sample's rows in each of the six arrays. -/
theorem spectrumAt_congr {R R' : ℕ}
    (c0 : (⟨3, ![R, 1, 64]⟩ : Shape).Idx → EReal) (c1 : (⟨3, ![R, 3, 64]⟩ : Shape).Idx → EReal)
    (c2 : (⟨3, ![R, 5, 64]⟩ : Shape).Idx → EReal) (c3 : (⟨3, ![R, 7, 64]⟩ : Shape).Idx → EReal)
    (c4 : (⟨3, ![R, 9, 64]⟩ : Shape).Idx → EReal) (c5 : (⟨3, ![R, 11, 64]⟩ : Shape).Idx → EReal)
    (d0 : (⟨3, ![R', 1, 64]⟩ : Shape).Idx → EReal) (d1 : (⟨3, ![R', 3, 64]⟩ : Shape).Idx → EReal)
    (d2 : (⟨3, ![R', 5, 64]⟩ : Shape).Idx → EReal) (d3 : (⟨3, ![R', 7, 64]⟩ : Shape).Idx → EReal)
    (d4 : (⟨3, ![R', 9, 64]⟩ : Shape).Idx → EReal) (d5 : (⟨3, ![R', 11, 64]⟩ : Shape).Idx → EReal)
    (n : Fin R) (n' : Fin R')
    (h0 : ∀ (k : Fin 1) (f : Fin 64), c0 (ix3 n k f) = d0 (ix3 n' k f))
    (h1 : ∀ (k : Fin 3) (f : Fin 64), c1 (ix3 n k f) = d1 (ix3 n' k f))
    (h2 : ∀ (k : Fin 5) (f : Fin 64), c2 (ix3 n k f) = d2 (ix3 n' k f))
    (h3 : ∀ (k : Fin 7) (f : Fin 64), c3 (ix3 n k f) = d3 (ix3 n' k f))
    (h4 : ∀ (k : Fin 9) (f : Fin 64), c4 (ix3 n k f) = d4 (ix3 n' k f))
    (h5 : ∀ (k : Fin 11) (f : Fin 64), c5 (ix3 n k f) = d5 (ix3 n' k f)) (j : Fin 24576) :
    spectrumAt c0 c1 c2 c3 c4 c5 n j = spectrumAt d0 d1 d2 d3 d4 d5 n' j := by
  unfold spectrumAt
  rw [gram_congr w0 c0 d0 n n' h0, gram_congr w1 c1 d1 n n' h1, gram_congr w2 c2 d2 n n' h2,
    gram_congr w3 c3 d3 n n' h3, gram_congr w4 c4 d4 n n' h4, gram_congr w5 c5 d5 n n' h5]

end Cert.Gram

end
-- ==== Proof.Channels.lean ====
/-
  What one grid step stores for each angular channel, entry by entry.

  For a channel with M components the step starts a 64 × 64 total per sample at zero and adds, for k = 0 … M − 1 in
  turn, the outer product of row k of the sample's block with itself; it then scales the total by the channel's
  weight and lays it out flat. Read at sample r and flat position j this is the weight times
  ((0 + p_0) + p_1) + … + p_{M−1} with p_k = x[r, k, j / 64] · x[r, k, j mod 64]: the sample's scaled Gram entry
  with the sum over the components written as a running total. For the three longest channels the stored value is
  assembled from intermediate totals; unfolded, they are the same running total.
-/
import proofs.«116602_j6279242187188_1_alg».proof.Proof.Gen.KernelIdeal.Skeleton
import proofs.«116602_j6279242187188_1_alg».proof.Proof.Spectrum

noncomputable section

namespace Cert.Blocks

open Idealize.ShloMosaic Idealize.ShloMosaic.ValueIdx Cert.KernelIdeal Cert.KernelIdeal.Gen Cert.Gram

/-- Channel 0 (one component): the stored value is the scaled product of the single row with itself. -/
theorem channel0 (v : Vec Ideal S80x1x64 .f32) (r : Fin 80) (j : Fin 4096) :
    k0_pay2 (F := Ideal) v (ix2 r j)
      = gram w0 v r ⟨j.val / 64, by have := j.isLt; omega⟩ ⟨j.val % 64, Nat.mod_lt _ (by decide)⟩ := by
  unfold k0_pay2
  simp only [flat, mulf_apply, addf_apply, broadcast_apply, spread_column, spread_row, as_column, as_row, drop_unit,
    slice_row (M := 1) 0 (by decide),
    Ideal.ofBits_def, Ideal.ofBits_zero_f32]
  unfold gram
  rw [total1]
  rfl

/-- Channel 1 (three components). -/
theorem channel1 (v : Vec Ideal S80x3x64 .f32) (r : Fin 80) (j : Fin 4096) :
    k0_pay3 (F := Ideal) v (ix2 r j)
      = gram w1 v r ⟨j.val / 64, by have := j.isLt; omega⟩ ⟨j.val % 64, Nat.mod_lt _ (by decide)⟩ := by
  unfold k0_pay3
  simp only [flat, mulf_apply, addf_apply, broadcast_apply, spread_column, spread_row, as_column, as_row, drop_unit,
    slice_row (M := 3) 0 (by decide), slice_row (M := 3) 1 (by decide), slice_row (M := 3) 2 (by decide),
    Ideal.ofBits_def, Ideal.ofBits_zero_f32]
  unfold gram
  rw [total3]

/-- Channel 2 (five components). -/
theorem channel2 (v : Vec Ideal S80x5x64 .f32) (r : Fin 80) (j : Fin 4096) :
    k0_pay4 (F := Ideal) v (ix2 r j)
      = gram w2 v r ⟨j.val / 64, by have := j.isLt; omega⟩ ⟨j.val % 64, Nat.mod_lt _ (by decide)⟩ := by
  unfold k0_pay4
  simp only [flat, mulf_apply, addf_apply, broadcast_apply, spread_column, spread_row, as_column, as_row, drop_unit,
    slice_row (M := 5) 0 (by decide), slice_row (M := 5) 1 (by decide), slice_row (M := 5) 2 (by decide), slice_row (M := 5) 3 (by decide), slice_row (M := 5) 4 (by decide),
    Ideal.ofBits_def, Ideal.ofBits_zero_f32]
  unfold gram
  rw [total5]

/-- Channel 3 (seven components): the total starts from a zero square made before the rows are read. -/
theorem channel3 (v : Vec Ideal S80x7x64 .f32) (r : Fin 80) (j : Fin 4096) :
    k0_pay6 (F := Ideal) v (k0_pay5 (F := Ideal)) (ix2 r j)
      = gram w3 v r ⟨j.val / 64, by have := j.isLt; omega⟩ ⟨j.val % 64, Nat.mod_lt _ (by decide)⟩ := by
  unfold k0_pay6 k0_pay5
  simp only [flat, mulf_apply, addf_apply, broadcast_apply, spread_column, spread_row, as_column, as_row, drop_unit,
    slice_row (M := 7) 0 (by decide), slice_row (M := 7) 1 (by decide), slice_row (M := 7) 2 (by decide), slice_row (M := 7) 3 (by decide), slice_row (M := 7) 4 (by decide), slice_row (M := 7) 5 (by decide), slice_row (M := 7) 6 (by decide),
    Ideal.ofBits_def, Ideal.ofBits_zero_f32]
  unfold gram
  rw [total7]

/-- Channel 4 (nine components): the total over rows 0 to 5 and row 6 itself are made first, rows 6 to 8 are added after. -/
theorem channel4 (v : Vec Ideal S80x9x64 .f32) (r : Fin 80) (j : Fin 4096) :
    k0_pay9 (F := Ideal) v (k0_pay7 v) (k0_pay8 v) (ix2 r j)
      = gram w4 v r ⟨j.val / 64, by have := j.isLt; omega⟩ ⟨j.val % 64, Nat.mod_lt _ (by decide)⟩ := by
  unfold k0_pay9 k0_pay7 k0_pay8
  simp only [flat, mulf_apply, addf_apply, broadcast_apply, spread_column, spread_row, as_column, as_row, drop_unit,
    slice_row (M := 9) 0 (by decide), slice_row (M := 9) 1 (by decide), slice_row (M := 9) 2 (by decide), slice_row (M := 9) 3 (by decide), slice_row (M := 9) 4 (by decide), slice_row (M := 9) 5 (by decide), slice_row (M := 9) 6 (by decide), slice_row (M := 9) 7 (by decide), slice_row (M := 9) 8 (by decide),
    Ideal.ofBits_def, Ideal.ofBits_zero_f32]
  unfold gram
  rw [total9]

/-- Channel 5 (eleven components): the total over rows 0 to 2, then rows 3 to 9, then row 10 as a column and as a row. -/
theorem channel5 (v : Vec Ideal S80x11x64 .f32) (r : Fin 80) (j : Fin 4096) :
    k0_pay1 (F := Ideal) (k0_pay11 v (k0_pay10 v)) (k0_pay13 v) (k0_pay14 v) (ix2 r j)
      = gram w5 v r ⟨j.val / 64, by have := j.isLt; omega⟩ ⟨j.val % 64, Nat.mod_lt _ (by decide)⟩ := by
  unfold k0_pay1 k0_pay11 k0_pay10 k0_pay13 k0_pay14 k0_pay12
  simp only [flat, mulf_apply, addf_apply, broadcast_apply, spread_column, spread_row, as_column, as_row, drop_unit,
    slice_row (M := 11) 0 (by decide), slice_row (M := 11) 1 (by decide), slice_row (M := 11) 2 (by decide), slice_row (M := 11) 3 (by decide), slice_row (M := 11) 4 (by decide), slice_row (M := 11) 5 (by decide), slice_row (M := 11) 6 (by decide), slice_row (M := 11) 7 (by decide), slice_row (M := 11) 8 (by decide), slice_row (M := 11) 9 (by decide), slice_row (M := 11) 10 (by decide),
    Ideal.ofBits_def, Ideal.ofBits_zero_f32]
  unfold gram
  rw [total11]

end Cert.Blocks

end
-- ==== Proof.Columns.lean ====
/-
  Which channel a column of the spectrum belongs to. A column j = 4096 l + j' with j' < 4096 lies in channel l, and its
  feature pair is (j' / 64, j' mod 64): since 4096 = 64 · 64 the channel's offset does not move the pair.
-/
import proofs.«116602_j6279242187188_1_alg».proof.Proof.Spectrum

noncomputable section

namespace Cert.Gram

open Idealize.ShloMosaic Idealize.ShloMosaic.ValueIdx

variable {R : ℕ} (c0 : (⟨3, ![R, 1, 64]⟩ : Shape).Idx → EReal) (c1 : (⟨3, ![R, 3, 64]⟩ : Shape).Idx → EReal)
    (c2 : (⟨3, ![R, 5, 64]⟩ : Shape).Idx → EReal) (c3 : (⟨3, ![R, 7, 64]⟩ : Shape).Idx → EReal)
    (c4 : (⟨3, ![R, 9, 64]⟩ : Shape).Idx → EReal) (c5 : (⟨3, ![R, 11, 64]⟩ : Shape).Idx → EReal)

/-- The feature pair of column 4096 l + j' is that of j'. -/
theorem feat_of_offset (l : ℕ) (j : Fin 24576) (j' : Fin 4096) (hj : j.val = 4096 * l + j'.val) :
    featF j = ⟨j'.val / 64, by have := j'.isLt; omega⟩ ∧ featG j = ⟨j'.val % 64, Nat.mod_lt _ (by decide)⟩ := by
  have := j'.isLt
  exact ⟨Fin.ext (by show j.val / 64 % 64 = j'.val / 64; omega), Fin.ext (by show j.val % 64 = j'.val % 64; omega)⟩

theorem spectrumAt_channel0 (n : Fin R) (j : Fin 24576) (j' : Fin 4096) (hj : j.val = 4096 * 0 + j'.val) :
    spectrumAt c0 c1 c2 c3 c4 c5 n j
      = gram w0 c0 n ⟨j'.val / 64, by have := j'.isLt; omega⟩ ⟨j'.val % 64, Nat.mod_lt _ (by decide)⟩ := by
  have := j'.isLt
  obtain ⟨ef, eg⟩ := feat_of_offset 0 j j' hj
  unfold spectrumAt
  rw [if_pos (by omega), ef, eg]

theorem spectrumAt_channel1 (n : Fin R) (j : Fin 24576) (j' : Fin 4096) (hj : j.val = 4096 * 1 + j'.val) :
    spectrumAt c0 c1 c2 c3 c4 c5 n j
      = gram w1 c1 n ⟨j'.val / 64, by have := j'.isLt; omega⟩ ⟨j'.val % 64, Nat.mod_lt _ (by decide)⟩ := by
  have := j'.isLt
  obtain ⟨ef, eg⟩ := feat_of_offset 1 j j' hj
  unfold spectrumAt
  rw [if_neg (by omega), if_pos (by omega), ef, eg]

theorem spectrumAt_channel2 (n : Fin R) (j : Fin 24576) (j' : Fin 4096) (hj : j.val = 4096 * 2 + j'.val) :
    spectrumAt c0 c1 c2 c3 c4 c5 n j
      = gram w2 c2 n ⟨j'.val / 64, by have := j'.isLt; omega⟩ ⟨j'.val % 64, Nat.mod_lt _ (by decide)⟩ := by
  have := j'.isLt
  obtain ⟨ef, eg⟩ := feat_of_offset 2 j j' hj
  unfold spectrumAt
  rw [if_neg (by omega), if_neg (by omega), if_pos (by omega), ef, eg]

theorem spectrumAt_channel3 (n : Fin R) (j : Fin 24576) (j' : Fin 4096) (hj : j.val = 4096 * 3 + j'.val) :
    spectrumAt c0 c1 c2 c3 c4 c5 n j
      = gram w3 c3 n ⟨j'.val / 64, by have := j'.isLt; omega⟩ ⟨j'.val % 64, Nat.mod_lt _ (by decide)⟩ := by
  have := j'.isLt
  obtain ⟨ef, eg⟩ := feat_of_offset 3 j j' hj
  unfold spectrumAt
  rw [if_neg (by omega), if_neg (by omega), if_neg (by omega), if_pos (by omega), ef, eg]

theorem spectrumAt_channel4 (n : Fin R) (j : Fin 24576) (j' : Fin 4096) (hj : j.val = 4096 * 4 + j'.val) :
    spectrumAt c0 c1 c2 c3 c4 c5 n j
      = gram w4 c4 n ⟨j'.val / 64, by have := j'.isLt; omega⟩ ⟨j'.val % 64, Nat.mod_lt _ (by decide)⟩ := by
  have := j'.isLt
  obtain ⟨ef, eg⟩ := feat_of_offset 4 j j' hj
  unfold spectrumAt
  rw [if_neg (by omega), if_neg (by omega), if_neg (by omega), if_neg (by omega), if_pos (by omega), ef, eg]

theorem spectrumAt_channel5 (n : Fin R) (j : Fin 24576) (j' : Fin 4096) (hj : j.val = 4096 * 5 + j'.val) :
    spectrumAt c0 c1 c2 c3 c4 c5 n j
      = gram w5 c5 n ⟨j'.val / 64, by have := j'.isLt; omega⟩ ⟨j'.val % 64, Nat.mod_lt _ (by decide)⟩ := by
  have := j'.isLt
  obtain ⟨ef, eg⟩ := feat_of_offset 5 j j' hj
  unfold spectrumAt
  rw [if_neg (by omega), if_neg (by omega), if_neg (by omega), if_neg (by omega), if_neg (by omega), ef, eg]

end Cert.Gram

end
-- ==== Proof.Block.lean ====
/-
  What one grid step leaves in its output block [80, 24576]: the power spectrum of the step's six input blocks.

  The step makes six stores, channel l's into columns 4096 l to 4096 l + 4095; together they tile the block. Each
  store's value at local position (r, j) is sample r's scaled Gram entry for the pair (j / 64, j mod 64), which is
  what the spectrum of the blocks holds at column 4096 l + j. So the block, read as the overlay of the six stores,
  is the spectrum of the blocks at every position.
-/
import proofs.«116602_j6279242187188_1_alg».proof.Proof.Gen.KernelIdeal.Frame
import proofs.«116602_j6279242187188_1_alg».proof.Proof.Channels
import proofs.«116602_j6279242187188_1_alg».proof.Proof.Columns

noncomputable section

namespace Cert.Blocks

open Idealize.ShloMosaic Idealize.ShloMosaic.ValueIdx Cert.KernelIdeal Cert.KernelIdeal.Gen Cert.Gram

theorem zero3 : (![0, 0, 0] : Fin 3 → Nat) = fun _ => 0 := funext fun a => by fin_cases a <;> rfl

/-- A store into columns off … off + 4095 of the block places local position (r, j) at (r, off + j). -/
theorem emb_store (off : ℕ) (hoff : off + 4096 ≤ 24576) (inb : ∀ a, (![0, off] : Fin 2 → ℕ) a + S80x4096.size a ≤ S80x24576.size a)
    (r : Fin 80) (j : Fin 4096) :
    (Rect.unit (s := S80x24576) ![0, off] S80x4096.size inb).emb (ix2 r j)
      = ix2 r (⟨off + j.val, by have := j.isLt; omega⟩ : Fin 24576) := by
  funext a; apply Fin.ext
  match a with
  | ⟨0, _⟩ => show 0 + 1 * r.val = r.val; omega
  | ⟨1, _⟩ => show off + 1 * j.val = off + j.val; omega

/-- Channel 0's store: at local position (r, j) it holds what the spectrum of the blocks holds at column 0 + j. -/
theorem piece0 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_1.shape.Idx) :
    k0_pay2 (F := Ideal) (View.ld x0 r0_0) x = spectrum x0 x1 x2 x3 x4 x5 (r0_1.emb x) := by
  obtain ⟨r, j, rfl⟩ : ∃ (r : Fin 80) (j : Fin 4096), x = ix2 r j := ⟨x 0, x 1, eq_ix2 x⟩
  rw [View.ld_unit_zero (S := S80x1x64) zero3, channel0, emb_store 0 (by decide)]
  exact (spectrumAt_channel0 x0 x1 x2 x3 x4 x5 r ⟨0 + j.val, by have := j.isLt; omega⟩ j rfl).symm

/-- Channel 1's store: at local position (r, j) it holds what the spectrum of the blocks holds at column 4096 + j. -/
theorem piece1 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_3.shape.Idx) :
    k0_pay3 (F := Ideal) (View.ld x1 r0_2) x = spectrum x0 x1 x2 x3 x4 x5 (r0_3.emb x) := by
  obtain ⟨r, j, rfl⟩ : ∃ (r : Fin 80) (j : Fin 4096), x = ix2 r j := ⟨x 0, x 1, eq_ix2 x⟩
  rw [View.ld_unit_zero (S := S80x3x64) zero3, channel1, emb_store 4096 (by decide)]
  exact (spectrumAt_channel1 x0 x1 x2 x3 x4 x5 r ⟨4096 + j.val, by have := j.isLt; omega⟩ j rfl).symm

/-- Channel 2's store: at local position (r, j) it holds what the spectrum of the blocks holds at column 8192 + j. -/
theorem piece2 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_5.shape.Idx) :
    k0_pay4 (F := Ideal) (View.ld x2 r0_4) x = spectrum x0 x1 x2 x3 x4 x5 (r0_5.emb x) := by
  obtain ⟨r, j, rfl⟩ : ∃ (r : Fin 80) (j : Fin 4096), x = ix2 r j := ⟨x 0, x 1, eq_ix2 x⟩
  rw [View.ld_unit_zero (S := S80x5x64) zero3, channel2, emb_store 8192 (by decide)]
  exact (spectrumAt_channel2 x0 x1 x2 x3 x4 x5 r ⟨8192 + j.val, by have := j.isLt; omega⟩ j rfl).symm

/-- Channel 3's store: at local position (r, j) it holds what the spectrum of the blocks holds at column 12288 + j. -/
theorem piece3 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_7.shape.Idx) :
    k0_pay6 (F := Ideal) (View.ld x3 r0_6) (k0_pay5 (F := Ideal)) x = spectrum x0 x1 x2 x3 x4 x5 (r0_7.emb x) := by
  obtain ⟨r, j, rfl⟩ : ∃ (r : Fin 80) (j : Fin 4096), x = ix2 r j := ⟨x 0, x 1, eq_ix2 x⟩
  rw [View.ld_unit_zero (S := S80x7x64) zero3, channel3, emb_store 12288 (by decide)]
  exact (spectrumAt_channel3 x0 x1 x2 x3 x4 x5 r ⟨12288 + j.val, by have := j.isLt; omega⟩ j rfl).symm

/-- Channel 4's store: at local position (r, j) it holds what the spectrum of the blocks holds at column 16384 + j. -/
theorem piece4 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_9.shape.Idx) :
    k0_pay9 (F := Ideal) (View.ld x4 r0_8) (k0_pay7 (View.ld x4 r0_8)) (k0_pay8 (View.ld x4 r0_8)) x = spectrum x0 x1 x2 x3 x4 x5 (r0_9.emb x) := by
  obtain ⟨r, j, rfl⟩ : ∃ (r : Fin 80) (j : Fin 4096), x = ix2 r j := ⟨x 0, x 1, eq_ix2 x⟩
  rw [View.ld_unit_zero (S := S80x9x64) zero3, channel4, emb_store 16384 (by decide)]
  exact (spectrumAt_channel4 x0 x1 x2 x3 x4 x5 r ⟨16384 + j.val, by have := j.isLt; omega⟩ j rfl).symm

/-- Channel 5's store: at local position (r, j) it holds what the spectrum of the blocks holds at column 20480 + j. -/
theorem piece5 (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) (x : r0_11.shape.Idx) :
    k0_pay1 (F := Ideal) (k0_pay11 (View.ld x5 r0_10) (k0_pay10 (View.ld x5 r0_10))) (k0_pay13 (View.ld x5 r0_10)) (k0_pay14 (View.ld x5 r0_10)) x = spectrum x0 x1 x2 x3 x4 x5 (r0_11.emb x) := by
  obtain ⟨r, j, rfl⟩ : ∃ (r : Fin 80) (j : Fin 4096), x = ix2 r j := ⟨x 0, x 1, eq_ix2 x⟩
  rw [View.ld_unit_zero (S := S80x11x64) zero3, channel5, emb_store 20480 (by decide)]
  exact (spectrumAt_channel5 x0 x1 x2 x3 x4 x5 r ⟨20480 + j.val, by have := j.isLt; omega⟩ j rfl).symm

/-- THE BLOCK a grid step leaves is the power spectrum of its six input blocks. -/
theorem out_eq (x0 : Vec Ideal S80x1x64 .f32) (x1 : Vec Ideal S80x3x64 .f32) (x2 : Vec Ideal S80x5x64 .f32)
    (x3 : Vec Ideal S80x7x64 .f32) (x4 : Vec Ideal S80x9x64 .f32) (x5 : Vec Ideal S80x11x64 .f32) :
    out0_6 (F := Ideal) x0 x1 x2 x3 x4 x5 = spectrum x0 x1 x2 x3 x4 x5 := by
  funext y
  unfold out0_6
  refine View.canon_apply_of_pieces (Val := Elt Ideal) (spectrum x0 x1 x2 x3 x4 x5) _ ?_ y (cover0_6 _ _ _ _ _ _ y)
  intro p hp x
  simp only [List.mem_cons, List.mem_singleton, List.not_mem_nil, or_false] at hp
  rcases hp with rfl | rfl | rfl | rfl | rfl | rfl
  · exact piece5 x0 x1 x2 x3 x4 x5 x
  · exact piece4 x0 x1 x2 x3 x4 x5 x
  · exact piece3 x0 x1 x2 x3 x4 x5 x
  · exact piece2 x0 x1 x2 x3 x4 x5 x
  · exact piece1 x0 x1 x2 x3 x4 x5 x
  · exact piece0 x0 x1 x2 x3 x4 x5 x

end Cert.Blocks

end
-- ==== Proof.Array.lean ====
/-
  From the grid steps' blocks to the whole output array.

  The grid has 125 steps; step t reads samples 80 t … 80 t + 79 of each of the six coefficient arrays and writes rows
  80 t … 80 t + 79 of the output, all 24576 columns. A sample's spectrum depends only on that sample's rows, so the
  spectrum of the step's blocks at local row r is the spectrum of the whole arrays at row 80 t + r: what the step
  writes back is its block of the arrays' spectrum. Row n is written by step n / 80, so the blocks cover the output,
  and after the run the output array is the spectrum of the six arrays.
-/
import proofs.«116602_j6279242187188_1_alg».proof.Proof.Gen.KernelIdeal.Value
import proofs.«116602_j6279242187188_1_alg».proof.Proof.Block

noncomputable section

namespace Cert.Blocks

open Cert.KernelIdeal Cert.KernelIdeal.Gen Cert.Gram Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: every window's block index is the step on the sample axis and zero on the
    others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 2) = t.val ∧ win0_6.index t (1 : Fin 2) = 0 :=
  (by decide +kernel : ∀ t : Fin grid0.N, _)

theorem steps : cfg0.N = 125 := N_0

/-- Input 0's block at grid step t holds samples 80 t … 80 t + 79 of its array. -/
theorem block0 (c : Dev nD) (t : Fin cfg0.N) (r : Fin 80) (n : Fin 10000) (hn : n.val = 80 * t.val + r.val)
    (k : Fin 1) (f : Fin 64) :
    (iblk m c 0 t : S80x1x64.Idx → EReal) (ix3 r k f) = (V m c main_arg0 : S10000x1x64.Idx → EReal) (ix3 n k f) := by
  show V m c main_arg0 (((cfg0.win 0).blk t).view.emb (ix3 r k f)) = _
  refine congrArg (V m c main_arg0) (funext fun a => Fin.ext ?_)
  have e := idx_facts t
  match a with
  | ⟨0, _⟩ => show win0_0.index t (0 : Fin 3) * 80 + 1 * r.val = n.val; omega
  | ⟨1, _⟩ => show win0_0.index t (1 : Fin 3) * 1 + 1 * k.val = k.val; omega
  | ⟨2, _⟩ => show win0_0.index t (2 : Fin 3) * 64 + 1 * f.val = f.val; omega

/-- Input 1's block at grid step t holds samples 80 t … 80 t + 79 of its array. -/
theorem block1 (c : Dev nD) (t : Fin cfg0.N) (r : Fin 80) (n : Fin 10000) (hn : n.val = 80 * t.val + r.val)
    (k : Fin 3) (f : Fin 64) :
    (iblk m c 1 t : S80x3x64.Idx → EReal) (ix3 r k f) = (V m c main_arg1 : S10000x3x64.Idx → EReal) (ix3 n k f) := by
  show V m c main_arg1 (((cfg0.win 1).blk t).view.emb (ix3 r k f)) = _
  refine congrArg (V m c main_arg1) (funext fun a => Fin.ext ?_)
  have e := idx_facts t
  match a with
  | ⟨0, _⟩ => show win0_1.index t (0 : Fin 3) * 80 + 1 * r.val = n.val; omega
  | ⟨1, _⟩ => show win0_1.index t (1 : Fin 3) * 3 + 1 * k.val = k.val; omega
  | ⟨2, _⟩ => show win0_1.index t (2 : Fin 3) * 64 + 1 * f.val = f.val; omega

/-- Input 2's block at grid step t holds samples 80 t … 80 t + 79 of its array. -/
theorem block2 (c : Dev nD) (t : Fin cfg0.N) (r : Fin 80) (n : Fin 10000) (hn : n.val = 80 * t.val + r.val)
    (k : Fin 5) (f : Fin 64) :
    (iblk m c 2 t : S80x5x64.Idx → EReal) (ix3 r k f) = (V m c main_arg2 : S10000x5x64.Idx → EReal) (ix3 n k f) := by
  show V m c main_arg2 (((cfg0.win 2).blk t).view.emb (ix3 r k f)) = _
  refine congrArg (V m c main_arg2) (funext fun a => Fin.ext ?_)
  have e := idx_facts t
  match a with
  | ⟨0, _⟩ => show win0_2.index t (0 : Fin 3) * 80 + 1 * r.val = n.val; omega
  | ⟨1, _⟩ => show win0_2.index t (1 : Fin 3) * 5 + 1 * k.val = k.val; omega
  | ⟨2, _⟩ => show win0_2.index t (2 : Fin 3) * 64 + 1 * f.val = f.val; omega

/-- Input 3's block at grid step t holds samples 80 t … 80 t + 79 of its array. -/
theorem block3 (c : Dev nD) (t : Fin cfg0.N) (r : Fin 80) (n : Fin 10000) (hn : n.val = 80 * t.val + r.val)
    (k : Fin 7) (f : Fin 64) :
    (iblk m c 3 t : S80x7x64.Idx → EReal) (ix3 r k f) = (V m c main_arg3 : S10000x7x64.Idx → EReal) (ix3 n k f) := by
  show V m c main_arg3 (((cfg0.win 3).blk t).view.emb (ix3 r k f)) = _
  refine congrArg (V m c main_arg3) (funext fun a => Fin.ext ?_)
  have e := idx_facts t
  match a with
  | ⟨0, _⟩ => show win0_3.index t (0 : Fin 3) * 80 + 1 * r.val = n.val; omega
  | ⟨1, _⟩ => show win0_3.index t (1 : Fin 3) * 7 + 1 * k.val = k.val; omega
  | ⟨2, _⟩ => show win0_3.index t (2 : Fin 3) * 64 + 1 * f.val = f.val; omega

/-- Input 4's block at grid step t holds samples 80 t … 80 t + 79 of its array. -/
theorem block4 (c : Dev nD) (t : Fin cfg0.N) (r : Fin 80) (n : Fin 10000) (hn : n.val = 80 * t.val + r.val)
    (k : Fin 9) (f : Fin 64) :
    (iblk m c 4 t : S80x9x64.Idx → EReal) (ix3 r k f) = (V m c main_arg4 : S10000x9x64.Idx → EReal) (ix3 n k f) := by
  show V m c main_arg4 (((cfg0.win 4).blk t).view.emb (ix3 r k f)) = _
  refine congrArg (V m c main_arg4) (funext fun a => Fin.ext ?_)
  have e := idx_facts t
  match a with
  | ⟨0, _⟩ => show win0_4.index t (0 : Fin 3) * 80 + 1 * r.val = n.val; omega
  | ⟨1, _⟩ => show win0_4.index t (1 : Fin 3) * 9 + 1 * k.val = k.val; omega
  | ⟨2, _⟩ => show win0_4.index t (2 : Fin 3) * 64 + 1 * f.val = f.val; omega

/-- Input 5's block at grid step t holds samples 80 t … 80 t + 79 of its array. -/
theorem block5 (c : Dev nD) (t : Fin cfg0.N) (r : Fin 80) (n : Fin 10000) (hn : n.val = 80 * t.val + r.val)
    (k : Fin 11) (f : Fin 64) :
    (iblk m c 5 t : S80x11x64.Idx → EReal) (ix3 r k f) = (V m c main_arg5 : S10000x11x64.Idx → EReal) (ix3 n k f) := by
  show V m c main_arg5 (((cfg0.win 5).blk t).view.emb (ix3 r k f)) = _
  refine congrArg (V m c main_arg5) (funext fun a => Fin.ext ?_)
  have e := idx_facts t
  match a with
  | ⟨0, _⟩ => show win0_5.index t (0 : Fin 3) * 80 + 1 * r.val = n.val; omega
  | ⟨1, _⟩ => show win0_5.index t (1 : Fin 3) * 11 + 1 * k.val = k.val; omega
  | ⟨2, _⟩ => show win0_5.index t (2 : Fin 3) * 64 + 1 * f.val = f.val; omega

/-- The spectrum at a sample, for two families of arrays that agree on that sample's rows, at equal columns. -/
theorem spectrumAt_rows {R R' : ℕ}
    (c0 : (⟨3, ![R, 1, 64]⟩ : Shape).Idx → EReal) (c1 : (⟨3, ![R, 3, 64]⟩ : Shape).Idx → EReal)
    (c2 : (⟨3, ![R, 5, 64]⟩ : Shape).Idx → EReal) (c3 : (⟨3, ![R, 7, 64]⟩ : Shape).Idx → EReal)
    (c4 : (⟨3, ![R, 9, 64]⟩ : Shape).Idx → EReal) (c5 : (⟨3, ![R, 11, 64]⟩ : Shape).Idx → EReal)
    (d0 : (⟨3, ![R', 1, 64]⟩ : Shape).Idx → EReal) (d1 : (⟨3, ![R', 3, 64]⟩ : Shape).Idx → EReal)
    (d2 : (⟨3, ![R', 5, 64]⟩ : Shape).Idx → EReal) (d3 : (⟨3, ![R', 7, 64]⟩ : Shape).Idx → EReal)
    (d4 : (⟨3, ![R', 9, 64]⟩ : Shape).Idx → EReal) (d5 : (⟨3, ![R', 11, 64]⟩ : Shape).Idx → EReal)
    (n : Fin R) (n' : Fin R') (j j' : Fin 24576) (hj : j.val = j'.val)
    (h0 : ∀ (k : Fin 1) (f : Fin 64), c0 (ix3 n k f) = d0 (ix3 n' k f))
    (h1 : ∀ (k : Fin 3) (f : Fin 64), c1 (ix3 n k f) = d1 (ix3 n' k f))
    (h2 : ∀ (k : Fin 5) (f : Fin 64), c2 (ix3 n k f) = d2 (ix3 n' k f))
    (h3 : ∀ (k : Fin 7) (f : Fin 64), c3 (ix3 n k f) = d3 (ix3 n' k f))
    (h4 : ∀ (k : Fin 9) (f : Fin 64), c4 (ix3 n k f) = d4 (ix3 n' k f))
    (h5 : ∀ (k : Fin 11) (f : Fin 64), c5 (ix3 n k f) = d5 (ix3 n' k f)) :
    spectrumAt c0 c1 c2 c3 c4 c5 n j = spectrumAt d0 d1 d2 d3 d4 d5 n' j' := by
  obtain rfl : j = j' := Fin.ext hj
  exact spectrumAt_congr c0 c1 c2 c3 c4 c5 d0 d1 d2 d3 d4 d5 n n' h0 h1 h2 h3 h4 h5 j

/-- WHAT STEP t WRITES BACK is its block of the spectrum of the six arrays as the region finds them. -/
theorem flushed_eq (c : Dev nD) (t : Fin cfg0.N) :
    (dats m 0 c).flushed 6 t = ((cfg0.win 6).blk t).view.read (Elt Ideal)
      (spectrum (R := 10000) (V m c main_arg0) (V m c main_arg1) (V m c main_arg2) (V m c main_arg3) (V m c main_arg4) (V m c main_arg5)) := by
  rw [Cert.KernelIdeal.Value.flushed6, out_eq]
  funext y
  have e := idx_facts t
  have ht : t.val < 125 := lt_of_lt_of_eq t.isLt steps
  have hy0 : (y 0).val < 80 := (y 0).isLt
  have hy1 : (y 1).val < 24576 := (y 1).isLt
  have hn : win0_6.index t (0 : Fin 2) * 80 + 1 * (y 0).val = 80 * t.val + (y 0).val := by omega
  show spectrumAt (iblk m c 0 t) (iblk m c 1 t) (iblk m c 2 t) (iblk m c 3 t) (iblk m c 4 t) (iblk m c 5 t) (y 0) (y 1)
    = spectrumAt (V m c main_arg0) (V m c main_arg1) (V m c main_arg2) (V m c main_arg3) (V m c main_arg4) (V m c main_arg5)
        ⟨win0_6.index t (0 : Fin 2) * 80 + 1 * (y 0).val, by omega⟩ ⟨win0_6.index t (1 : Fin 2) * 24576 + 1 * (y 1).val, by omega⟩
  exact spectrumAt_rows _ _ _ _ _ _ _ _ _ _ _ _ _ _ _ _ (by show (y 1).val = win0_6.index t (1 : Fin 2) * 24576 + 1 * (y 1).val; omega)
    (fun k f => block0 m c t _ _ hn k f) (fun k f => block1 m c t _ _ hn k f) (fun k f => block2 m c t _ _ hn k f)
    (fun k f => block3 m c t _ _ hn k f) (fun k f => block4 m c t _ _ hn k f) (fun k f => block5 m c t _ _ hn k f)

/-- An index of the output array is in step t's block iff each coordinate is in the block's range on its axis. -/
theorem mem_blk (t : Fin cfg0.N) (i : S10000x24576.Idx) :
    i ∈ ((cfg0.win 6).blk t).view.set ↔ ∀ a : Fin 2, win0_6.index t a * S80x24576.size a ≤ (i a).val ∧ (i a).val < win0_6.index t a * S80x24576.size a + S80x24576.size a := by
  show i ∈ ((View.whole main_v0).slice (win0_6.rect t)).set ↔ _
  rw [View.set_slice_whole, Rect.mem_set_unit]
  exact Iff.rfl

/-- Row n of the output is in the block of step n / 80. -/
theorem cover (i : S10000x24576.Idx) :
    ∃ t : Fin cfg0.N, (cfg0.win 6).flush t = true ∧ i ∈ ((cfg0.win 6).blk t).view.set := by
  have hi0 : (i 0).val < 10000 := (i 0).isLt
  have hi1 : (i 1).val < 24576 := (i 1).isLt
  have hlt : (i 0).val / 80 < cfg0.N := by rw [steps]; omega
  have e := idx_facts ⟨(i 0).val / 80, hlt⟩
  have ev : (⟨(i 0).val / 80, hlt⟩ : Fin cfg0.N).val = (i 0).val / 80 := rfl
  refine ⟨⟨(i 0).val / 80, hlt⟩, flush0_6 _, ?_⟩
  rw [mem_blk]
  intro a
  match a with
  | ⟨0, _⟩ =>
    show win0_6.index ⟨(i 0).val / 80, hlt⟩ (0 : Fin 2) * 80 ≤ (i 0).val ∧ (i 0).val < win0_6.index ⟨(i 0).val / 80, hlt⟩ (0 : Fin 2) * 80 + 80
    omega
  | ⟨1, _⟩ =>
    show win0_6.index ⟨(i 0).val / 80, hlt⟩ (1 : Fin 2) * 24576 ≤ (i 1).val ∧ (i 1).val < win0_6.index ⟨(i 0).val / 80, hlt⟩ (1 : Fin 2) * 24576 + 24576
    omega

/-- THE OUTPUT ARRAY after the run is the power spectrum of the six argument arrays. -/
theorem final (c : Dev nD) :
    (dats m 0 c).arrAt 6 cfg0.N = spectrum (R := 10000) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) cover

/-- The run, read: every weakly fair execution ends with the result at the spectrum of the arguments, the arguments
    unchanged. -/
theorem run : θ_run defs (onTc (τ := τ) (main (F := Ideal))) ⟨m, fun _ => 0, ρ⟩ fun r => ∀ c : Dev nD,
      r.2.mem ((c : Thread nD τ).loc main_v0) = spectrum (R := 10000) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Blocks

end
-- ==== Proof.Reference.lean ====
/-
  The reference program read at an index. It computes, for each of the six angular channels, the scaled Gram matrix
  of a sample's component rows, lays each 64 × 64 square out flat in 4096 columns, and sets the six side by side.
  Column j of the result lies in the channel whose span of 4096 columns holds j; inside that span it is the entry
  (j / 64 mod 64, j mod 64) of the channel's square, because 4096 = 64 · 64 leaves both numbers unchanged when a
  multiple of 4096 is taken off j.
-/
import proofs.«116602_j6279242187188_1_alg».proof.Proof.Gen.ReferenceIdeal.Read
import proofs.«116602_j6279242187188_1_alg».proof.Proof.Spectrum

noncomputable section

open scoped BigOperators

namespace Cert.RefSide

open Cert.ReferenceIdeal Cert.ReferenceIdeal.Read Cert.Gram Idealize.ShloMosaic Idealize.ShloMosaic.ValueIdx

/-! ## One channel's flat square at an index

Flat position j' of sample n's square is the row-major position n · 4096 + j' of the whole array, so its sample is
(n · 4096 + j') / 4096 = n and its feature pair is ((n · 4096 + j') / 64 mod 64, (n · 4096 + j') mod 64)
= (j' / 64, j' mod 64). The square's entry there is the channel's weight times the sum over the components. -/

/-- Channel 0 (one component): column j' of the flat square is entry (j' / 64, j' mod 64) of the scaled Gram matrix. -/
theorem piece0 (x0 : S10000x1x64.Idx → EReal) (n : Fin 10000) (j' : Fin 4096) (f g : Fin 64)
    (hf : f.val = j'.val / 64) (hg : g.val = j'.val % 64) :
    val_main_v3 (F := Ideal) x0 (ix2 n j') = gram w0 x0 n f g := by
  have hj := j'.isLt
  have hn := n.isLt
  rw [val_main_v3_apply, val_main_v2_apply, val_main_v1_apply, val_main_cst_apply, val_main_v0_apply,
    Ideal.mulf_def, Ideal.ofBits_def]
  unfold gram
  have el : ∀ k : Fin 1, lidx_main_v0 (idx_main_v3 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 1, ridx_main_v0 (idx_main_v3 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w0 * ·) (Finset.sum_congr rfl fun k _ => by rw [el k, er k])

/-- Channel 1 (three components). -/
theorem piece1 (x1 : S10000x3x64.Idx → EReal) (n : Fin 10000) (j' : Fin 4096) (f g : Fin 64)
    (hf : f.val = j'.val / 64) (hg : g.val = j'.val % 64) :
    val_main_v7 (F := Ideal) x1 (ix2 n j') = gram w1 x1 n f g := by
  have hj := j'.isLt
  have hn := n.isLt
  rw [val_main_v7_apply, val_main_v6_apply, val_main_v5_apply, val_main_cst_0_apply, val_main_v4_apply,
    Ideal.mulf_def, Ideal.ofBits_def]
  unfold gram
  have el : ∀ k : Fin 3, lidx_main_v4 (idx_main_v7 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 3, ridx_main_v4 (idx_main_v7 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w1 * ·) (Finset.sum_congr rfl fun k _ => by rw [el k, er k])

/-- Channel 2 (five components). -/
theorem piece2 (x2 : S10000x5x64.Idx → EReal) (n : Fin 10000) (j' : Fin 4096) (f g : Fin 64)
    (hf : f.val = j'.val / 64) (hg : g.val = j'.val % 64) :
    val_main_v11 (F := Ideal) x2 (ix2 n j') = gram w2 x2 n f g := by
  have hj := j'.isLt
  have hn := n.isLt
  rw [val_main_v11_apply, val_main_v10_apply, val_main_v9_apply, val_main_cst_1_apply, val_main_v8_apply,
    Ideal.mulf_def, Ideal.ofBits_def]
  unfold gram
  have el : ∀ k : Fin 5, lidx_main_v8 (idx_main_v11 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 5, ridx_main_v8 (idx_main_v11 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w2 * ·) (Finset.sum_congr rfl fun k _ => by rw [el k, er k])

/-- Channel 3 (seven components). -/
theorem piece3 (x3 : S10000x7x64.Idx → EReal) (n : Fin 10000) (j' : Fin 4096) (f g : Fin 64)
    (hf : f.val = j'.val / 64) (hg : g.val = j'.val % 64) :
    val_main_v15 (F := Ideal) x3 (ix2 n j') = gram w3 x3 n f g := by
  have hj := j'.isLt
  have hn := n.isLt
  rw [val_main_v15_apply, val_main_v14_apply, val_main_v13_apply, val_main_cst_2_apply, val_main_v12_apply,
    Ideal.mulf_def, Ideal.ofBits_def]
  unfold gram
  have el : ∀ k : Fin 7, lidx_main_v12 (idx_main_v15 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 7, ridx_main_v12 (idx_main_v15 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w3 * ·) (Finset.sum_congr rfl fun k _ => by rw [el k, er k])

/-- Channel 4 (nine components). -/
theorem piece4 (x4 : S10000x9x64.Idx → EReal) (n : Fin 10000) (j' : Fin 4096) (f g : Fin 64)
    (hf : f.val = j'.val / 64) (hg : g.val = j'.val % 64) :
    val_main_v19 (F := Ideal) x4 (ix2 n j') = gram w4 x4 n f g := by
  have hj := j'.isLt
  have hn := n.isLt
  rw [val_main_v19_apply, val_main_v18_apply, val_main_v17_apply, val_main_cst_3_apply, val_main_v16_apply,
    Ideal.mulf_def, Ideal.ofBits_def]
  unfold gram
  have el : ∀ k : Fin 9, lidx_main_v16 (idx_main_v19 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 9, ridx_main_v16 (idx_main_v19 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w4 * ·) (Finset.sum_congr rfl fun k _ => by rw [el k, er k])

/-- Channel 5 (eleven components). -/
theorem piece5 (x5 : S10000x11x64.Idx → EReal) (n : Fin 10000) (j' : Fin 4096) (f g : Fin 64)
    (hf : f.val = j'.val / 64) (hg : g.val = j'.val % 64) :
    val_main_v23 (F := Ideal) x5 (ix2 n j') = gram w5 x5 n f g := by
  have hj := j'.isLt
  have hn := n.isLt
  rw [val_main_v23_apply, val_main_v22_apply, val_main_v21_apply, val_main_cst_4_apply, val_main_v20_apply,
    Ideal.mulf_def, Ideal.ofBits_def]
  unfold gram
  have el : ∀ k : Fin 11, lidx_main_v20 (idx_main_v23 (ix2 n j')) k = ix3 n k f := fun k => funext fun a => Fin.ext (by
    match a with
    | ⟨0, _⟩ => show (n.val * 4096 + j'.val) / 4096 = n.val; omega
    | ⟨1, _⟩ => rfl
    | ⟨2, _⟩ => show (n.val * 4096 + j'.val) / 64 % 64 = f.val; omega)
  have er : ∀ k : Fin 11, ridx_main_v20 (idx_main_v23 (ix2 n j')) k = ix3 n k g := fun k => funext fun a => Fin.ext (by
    match a with
    | ⟨0, _⟩ => show (n.val * 4096 + j'.val) / 4096 = n.val; omega
    | ⟨1, _⟩ => rfl
    | ⟨2, _⟩ => show (n.val * 4096 + j'.val) % 64 = g.val; omega)
  exact congrArg (w5 * ·) (Finset.sum_congr rfl fun k _ => by rw [el k, er k])

/-! ## The six squares side by side

The result's column j, with 4096 · l ≤ j < 4096 · (l + 1), is column j − 4096 · l of channel l's flat square: the l
squares before it take up 4096 · l columns, and the sample coordinate is untouched. -/

/-- Columns 0 to 4095 of the result are channel 0's flat square. -/
theorem side0 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (h : j.val < 4096) :
    val_main_v24 (F := Ideal) x0 x1 x2 x3 x4 x5 (ix2 n j)
      = val_main_v3 (F := Ideal) x0 (ix2 n (⟨j.val - 0, by omega⟩ : Fin 4096)) := by
  unfold val_main_v24
  refine concatenate_apply_piece (1 : Fin S10000x24576.rank) _ _ (ix2 n j) 0 (by show 0 < 6; omega) S10000x4096
    (val_main_v3 (F := Ideal) x0) rfl rfl 0 (by simp) (ix2 n (⟨j.val - 0, by omega⟩ : Fin 4096)) (fun b hb => ?_) ?_
  · match b with
    | ⟨0, _⟩ => rfl
    | ⟨1, _⟩ => exact absurd (Fin.ext rfl) hb
  · show 0 + (j.val - 0) = j.val
    omega

/-- Columns 4096 to 8191 of the result are channel 1's flat square. -/
theorem side1 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (hlo : 4096 ≤ j.val) (h : j.val < 8192) :
    val_main_v24 (F := Ideal) x0 x1 x2 x3 x4 x5 (ix2 n j)
      = val_main_v7 (F := Ideal) x1 (ix2 n (⟨j.val - 4096, by omega⟩ : Fin 4096)) := by
  unfold val_main_v24
  refine concatenate_apply_piece (1 : Fin S10000x24576.rank) _ _ (ix2 n j) 1 (by show 1 < 6; omega) S10000x4096
    (val_main_v7 (F := Ideal) x1) rfl rfl 4096 (by simp) (ix2 n (⟨j.val - 4096, by omega⟩ : Fin 4096)) (fun b hb => ?_) ?_
  · match b with
    | ⟨0, _⟩ => rfl
    | ⟨1, _⟩ => exact absurd (Fin.ext rfl) hb
  · show 4096 + (j.val - 4096) = j.val
    omega

/-- Columns 8192 to 12287 of the result are channel 2's flat square. -/
theorem side2 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (hlo : 8192 ≤ j.val) (h : j.val < 12288) :
    val_main_v24 (F := Ideal) x0 x1 x2 x3 x4 x5 (ix2 n j)
      = val_main_v11 (F := Ideal) x2 (ix2 n (⟨j.val - 8192, by omega⟩ : Fin 4096)) := by
  unfold val_main_v24
  refine concatenate_apply_piece (1 : Fin S10000x24576.rank) _ _ (ix2 n j) 2 (by show 2 < 6; omega) S10000x4096
    (val_main_v11 (F := Ideal) x2) rfl rfl 8192 (by simp) (ix2 n (⟨j.val - 8192, by omega⟩ : Fin 4096)) (fun b hb => ?_) ?_
  · match b with
    | ⟨0, _⟩ => rfl
    | ⟨1, _⟩ => exact absurd (Fin.ext rfl) hb
  · show 8192 + (j.val - 8192) = j.val
    omega

/-- Columns 12288 to 16383 of the result are channel 3's flat square. -/
theorem side3 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (hlo : 12288 ≤ j.val) (h : j.val < 16384) :
    val_main_v24 (F := Ideal) x0 x1 x2 x3 x4 x5 (ix2 n j)
      = val_main_v15 (F := Ideal) x3 (ix2 n (⟨j.val - 12288, by omega⟩ : Fin 4096)) := by
  unfold val_main_v24
  refine concatenate_apply_piece (1 : Fin S10000x24576.rank) _ _ (ix2 n j) 3 (by show 3 < 6; omega) S10000x4096
    (val_main_v15 (F := Ideal) x3) rfl rfl 12288 (by simp) (ix2 n (⟨j.val - 12288, by omega⟩ : Fin 4096)) (fun b hb => ?_) ?_
  · match b with
    | ⟨0, _⟩ => rfl
    | ⟨1, _⟩ => exact absurd (Fin.ext rfl) hb
  · show 12288 + (j.val - 12288) = j.val
    omega

/-- Columns 16384 to 20479 of the result are channel 4's flat square. -/
theorem side4 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (hlo : 16384 ≤ j.val) (h : j.val < 20480) :
    val_main_v24 (F := Ideal) x0 x1 x2 x3 x4 x5 (ix2 n j)
      = val_main_v19 (F := Ideal) x4 (ix2 n (⟨j.val - 16384, by omega⟩ : Fin 4096)) := by
  unfold val_main_v24
  refine concatenate_apply_piece (1 : Fin S10000x24576.rank) _ _ (ix2 n j) 4 (by show 4 < 6; omega) S10000x4096
    (val_main_v19 (F := Ideal) x4) rfl rfl 16384 (by simp) (ix2 n (⟨j.val - 16384, by omega⟩ : Fin 4096)) (fun b hb => ?_) ?_
  · match b with
    | ⟨0, _⟩ => rfl
    | ⟨1, _⟩ => exact absurd (Fin.ext rfl) hb
  · show 16384 + (j.val - 16384) = j.val
    omega

/-- Columns 20480 to 24575 of the result are channel 5's flat square. -/
theorem side5 (x0 : S10000x1x64.Idx → EReal) (x1 : S10000x3x64.Idx → EReal) (x2 : S10000x5x64.Idx → EReal)
    (x3 : S10000x7x64.Idx → EReal) (x4 : S10000x9x64.Idx → EReal) (x5 : S10000x11x64.Idx → EReal)
    (n : Fin 10000) (j : Fin 24576) (hlo : 20480 ≤ j.val) :
    val_main_v24 (F := Ideal) x0 x1 x2 x3 x4 x5 (ix2 n j)
      = val_main_v23 (F := Ideal) x5 (ix2 n (⟨j.val - 20480, by have := j.isLt; omega⟩ : Fin 4096)) := by
  unfold val_main_v24
  refine concatenate_apply_piece (1 : Fin S10000x24576.rank) _ _ (ix2 n j) 5 (by show 5 < 6; omega) S10000x4096
    (val_main_v23 (F := Ideal) x5) rfl rfl 20480 (by simp)
    (ix2 n (⟨j.val - 20480, by have := j.isLt; omega⟩ : Fin 4096)) (fun b hb => ?_) ?_
  · match b with
    | ⟨0, _⟩ => rfl
    | ⟨1, _⟩ => exact absurd (Fin.ext rfl) hb
  · show 20480 + (j.val - 20480) = j.val
    omega

/-! ## The reference is the power spectrum -/

/-- The reference program's result is the power spectrum of its six arguments: at sample n and column j both are the
    entry (j / 64 mod 64, j mod 64) of the scaled Gram matrix of the channel whose span holds j. -/
theorem reference_eq
    (x0 : Cert.ReferenceIdeal.S10000x1x64.Idx → EReal) (x1 : Cert.ReferenceIdeal.S10000x3x64.Idx → EReal)
    (x2 : Cert.ReferenceIdeal.S10000x5x64.Idx → EReal) (x3 : Cert.ReferenceIdeal.S10000x7x64.Idx → EReal)
    (x4 : Cert.ReferenceIdeal.S10000x9x64.Idx → EReal) (x5 : Cert.ReferenceIdeal.S10000x11x64.Idx → EReal) :
    Cert.ReferenceIdeal.Read.val_main_v24 (F := Ideal) x0 x1 x2 x3 x4 x5 = Cert.Gram.spectrum x0 x1 x2 x3 x4 x5 := by
  funext i
  obtain ⟨n, j, rfl⟩ : ∃ (n : Fin 10000) (j : Fin 24576), i = ix2 n j := ⟨i 0, i 1, eq_ix2 i⟩
  show val_main_v24 (F := Ideal) x0 x1 x2 x3 x4 x5 (ix2 n j) = spectrumAt x0 x1 x2 x3 x4 x5 n j
  have hj := j.isLt
  unfold spectrumAt
  split_ifs with h0 h1 h2 h3 h4
  · rw [side0 x0 x1 x2 x3 x4 x5 n j h0]
    exact piece0 x0 n _ _ _ (by show j.val / 64 % 64 = (j.val - 0) / 64; omega)
      (by show j.val % 64 = (j.val - 0) % 64; omega)
  · rw [side1 x0 x1 x2 x3 x4 x5 n j (by omega) h1]
    exact piece1 x1 n _ _ _ (by show j.val / 64 % 64 = (j.val - 4096) / 64; omega)
      (by show j.val % 64 = (j.val - 4096) % 64; omega)
  · rw [side2 x0 x1 x2 x3 x4 x5 n j (by omega) h2]
    exact piece2 x2 n _ _ _ (by show j.val / 64 % 64 = (j.val - 8192) / 64; omega)
      (by show j.val % 64 = (j.val - 8192) % 64; omega)
  · rw [side3 x0 x1 x2 x3 x4 x5 n j (by omega) h3]
    exact piece3 x3 n _ _ _ (by show j.val / 64 % 64 = (j.val - 12288) / 64; omega)
      (by show j.val % 64 = (j.val - 12288) % 64; omega)
  · rw [side4 x0 x1 x2 x3 x4 x5 n j (by omega) h4]
    exact piece4 x4 n _ _ _ (by show j.val / 64 % 64 = (j.val - 16384) / 64; omega)
      (by show j.val % 64 = (j.val - 16384) % 64; omega)
  · rw [side5 x0 x1 x2 x3 x4 x5 n j (by omega)]
    exact piece5 x5 n _ _ _ (by show j.val / 64 % 64 = (j.val - 20480) / 64; omega)
      (by show j.val % 64 = (j.val - 20480) % 64; omega)

end Cert.RefSide

end
-- ==== Proof.lean ====
/-
  The power spectrum of six coefficient arrays c_0 … c_5 (10000 samples, 1, 3, 5, 7, 9 and 11 components, 64
  features): for channel l, sample n and features f, g the entry w_l · Σ_k c_l[n, k, f] · c_l[n, k, g], the six
  64 × 64 squares laid out flat and set side by side in 24576 columns.

  The grid kernel reaches an entry by a running total from zero over the components, one outer product of a row
  with itself at a time, scales it by the channel's weight and stores channel l into columns 4096 l … 4096 l + 4095
  of its block of 80 samples; the reference takes each channel's batched product of the array with itself over the
  component axis, scales it, flattens the squares and concatenates them. Over the extended reals a running total
  from zero is the sum over the components (addition is commutative and associative there, and zero is neutral),
  the weights are the same single-precision words on both sides, and both layouts put entry (f, g) of channel l at
  column 4096 l + 64 f + g. So both programs end with the same function of the arguments, the spectrum, and no
  property of the inputs is used.

  The three frames are the generated ones (the reference's is its run with the result dropped); nothing was
  rewritten when the kernel was idealized, so that conjunct is trivial.
-/
import proofs.«116602_j6279242187188_1_alg».proof.Defs
import proofs.«116602_j6279242187188_1_alg».proof.Proof.Gen.Kernel
import proofs.«116602_j6279242187188_1_alg».proof.Proof.Gen.Kernel.Skeleton
import proofs.«116602_j6279242187188_1_alg».proof.Proof.Gen.Kernel.Launch
import proofs.«116602_j6279242187188_1_alg».proof.Proof.Gen.Kernel.Points
import proofs.«116602_j6279242187188_1_alg».proof.Proof.Gen.Kernel.Frame
import proofs.«116602_j6279242187188_1_alg».proof.Proof.Gen.KernelIdeal
import proofs.«116602_j6279242187188_1_alg».proof.Proof.Gen.KernelIdeal.Skeleton
import proofs.«116602_j6279242187188_1_alg».proof.Proof.Gen.KernelIdeal.Launch
import proofs.«116602_j6279242187188_1_alg».proof.Proof.Gen.KernelIdeal.Points
import proofs.«116602_j6279242187188_1_alg».proof.Proof.Gen.KernelIdeal.Frame
import proofs.«116602_j6279242187188_1_alg».proof.Proof.Gen.ReferenceIdeal
import proofs.«116602_j6279242187188_1_alg».proof.Proof.Gen.Pre_finite_inputs
import proofs.«116602_j6279242187188_1_alg».proof.Proof.Gen.KernelIdeal.Value
import proofs.«116602_j6279242187188_1_alg».proof.Proof.Gen.ReferenceIdeal.Run
import proofs.«116602_j6279242187188_1_alg».proof.Proof.Gen.ReferenceIdeal.Read
import proofs.«116602_j6279242187188_1_alg».proof.Proof.Array
import proofs.«116602_j6279242187188_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the power spectrum of the arguments: the kernel's output array block by block,
    the reference's concatenation column span by column span. -/
theorem algebraic : Cert.algebraic_KernelIdeal_ReferenceIdeal := by
  intro m ρ m' ρ' _ hagree
  refine ⟨fun c => Cert.Gram.spectrum (R := 10000) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v24_eq, Cert.RefSide.reference_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
